-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S8x4096x1024 .f32) (main_arg1 : FVec F S4096x1024 .f32) (main_arg2 : FVec F S4096 .f32) (main_arg3 : FVec F S1024x4096 .f32) (main_arg4 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_v13 main_v16
-- ==== Kernel.lean ====
abbrev S8x4096x1024 : Shape := ⟨3, ![8, 4096, 1024]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S32768x1024 : Shape := ⟨2, ![32768, 1024]⟩
abbrev S1x4096 : Shape := ⟨2, ![1, 4096]⟩
abbrev S1x1024 : Shape := ⟨2, ![1, 1024]⟩
abbrev S256x1024 : Shape := ⟨2, ![256, 1024]⟩
abbrev S256x4096 : Shape := ⟨2, ![256, 4096]⟩

abbrev nBuf : Space → Nat
  | .hbm => 12
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S4096x1024, .f32⟩
  | .hbm, ⟨2, _⟩ => ⟨S4096, .f32⟩
  | .hbm, ⟨3, _⟩ => ⟨S1024x4096, .f32⟩
  | .hbm, ⟨4, _⟩ => ⟨S1024, .f32⟩
  | .hbm, ⟨5, _⟩ => ⟨S32768x1024, .f32⟩
  | .hbm, ⟨6, _⟩ => ⟨S4096x1024, .bf16⟩
  | .hbm, ⟨7, _⟩ => ⟨S1024x4096, .bf16⟩
  | .hbm, ⟨8, _⟩ => ⟨S1x4096, .f32⟩
  | .hbm, ⟨9, _⟩ => ⟨S1x1024, .f32⟩
  | .hbm, ⟨10, _⟩ => ⟨S32768x1024, .f32⟩
  | .hbm, ⟨11, _⟩ => ⟨S8x4096x1024, .f32⟩
  | .local _ .vmem, ⟨0, _⟩ => ⟨S256x1024, .f32⟩
  | .local _ .vmem, ⟨1, _⟩ => ⟨S256x1024, .f32⟩
  | .local _ .vmem, ⟨2, _⟩ => ⟨S4096x1024, .bf16⟩
  | .local _ .vmem, ⟨3, _⟩ => ⟨S1x4096, .f32⟩
  | .local _ .vmem, ⟨4, _⟩ => ⟨S1024x4096, .bf16⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S8x4096x1024_S32768x1024 : S8x4096x1024.ShapeCasts S32768x1024
  bitsLt_bf16_f32 : FTy.bits .bf16 < FTy.bits .f32
  shapeCasts_S4096_S1x4096 : S4096.ShapeCasts S1x4096
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  shapeCasts_S32768x1024_S8x4096x1024 : S32768x1024.ShapeCasts S8x4096x1024
  dot_S256x1024_S4096x1024_S256x4096_1_1_0_0_n_n_wf : DotDims.WF S256x1024 S4096x1024 S256x4096 [1] [1] [0] [0] [] []
  dot_S256x4096_S1024x4096_S256x1024_1_1_0_0_n_n_wf : DotDims.WF S256x4096 S1024x4096 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S32768x1024.size a
  hwx0_0 : ∀ i : grid0.Coords, EltTy.bits .f32 = 32 ∨ (Rect.block (s := S32768x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S32768x1024.size a
  hwx0_5 : ∀ i : grid0.Coords, EltTy.bits .f32 = 32 ∨ (Rect.block (s := S32768x1024) S256x1024.size (cc0_transform_5 i) (hinb0_5 i)).WholeWords (EltTy.packing .f32)

variable [Facts₀]

def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf
def dot_S256x4096_S1024x4096_S256x1024_1_1_0_0_n_n : DotDims S256x4096 S1024x4096 S256x1024 where
  lhsContracting := [1]
  rhsContracting := [1]
  lhsNonContracting := [0]
  rhsNonContracting := [0]
  lhsBatch := []
  rhsBatch := []
  wf := dot_S256x4096_S1024x4096_S256x1024_1_1_0_0_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S8x4096x4096 : Shape := ⟨3, ![8, 4096, 4096]⟩
abbrev S1x1x4096 : Shape := ⟨3, ![1, 1, 4096]⟩
abbrev S_ : Shape := ⟨0, ![]⟩
abbrev S1x1x1024 : Shape := ⟨3, ![1, 1, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S4096x1024, .f32⟩
  | .hbm, ⟨2, _⟩ => ⟨S4096, .f32⟩
  | .hbm, ⟨3, _⟩ => ⟨S1024x4096, .f32⟩
  | .hbm, ⟨4, _⟩ => ⟨S1024, .f32⟩
  | .hbm, ⟨5, _⟩ => ⟨S8x4096x4096, .f32⟩
  | .hbm, ⟨6, _⟩ => ⟨S1x1x4096, .f32⟩
  | .hbm, ⟨7, _⟩ => ⟨S8x4096x4096, .f32⟩
  | .hbm, ⟨8, _⟩ => ⟨S8x4096x4096, .f32⟩
  | .hbm, ⟨9, _⟩ => ⟨S_, .f32⟩
  | .hbm, ⟨10, _⟩ => ⟨S8x4096x4096, .f32⟩
  | .hbm, ⟨11, _⟩ => ⟨S8x4096x4096, .f32⟩
  | .hbm, ⟨12, _⟩ => ⟨S8x4096x1024, .f32⟩
  | .hbm, ⟨13, _⟩ => ⟨S1x1x1024, .f32⟩
  | .hbm, ⟨14, _⟩ => ⟨S8x4096x1024, .f32⟩
  | .hbm, ⟨15, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S8x4096x4096_0_1_2 : S1x1x4096.BroadcastsInDim S8x4096x4096 (![0, 1, 2] : Fin 3 → Fin S8x4096x4096.rank)
  bcast_S_S8x4096x4096 : S_.BroadcastsInDim S8x4096x4096 (![] : Fin 0 → Fin S8x4096x4096.rank)
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  dot_S8x4096x1024_S4096x1024_S8x4096x4096_2_1_01_0_n_n_wf : DotDims.WF S8x4096x1024 S4096x1024 S8x4096x4096 [2] [1] [0, 1] [0] [] []
  dot_S8x4096x4096_S1024x4096_S8x4096x1024_2_1_01_0_n_n_wf : DotDims.WF S8x4096x4096 S1024x4096 S8x4096x1024 [2] [1] [0, 1] [0] [] []

variable [Facts₀]

def dot_S8x4096x1024_S4096x1024_S8x4096x4096_2_1_01_0_n_n : DotDims S8x4096x1024 S4096x1024 S8x4096x4096 where
  lhsContracting := [2]
  rhsContracting := [1]
  lhsNonContracting := [0, 1]
  rhsNonContracting := [0]
  lhsBatch := []
  rhsBatch := []
  wf := dot_S8x4096x1024_S4096x1024_S8x4096x4096_2_1_01_0_n_n_wf
def dot_S8x4096x4096_S1024x4096_S8x4096x1024_2_1_01_0_n_n : DotDims S8x4096x4096 S1024x4096 S8x4096x1024 where
  lhsContracting := [2]
  rhsContracting := [1]
  lhsNonContracting := [0, 1]
  rhsNonContracting := [0]
  lhsBatch := []
  rhsBatch := []
  wf := dot_S8x4096x4096_S1024x4096_S8x4096x1024_2_1_01_0_n_n_wf

class Facts : Prop extends Facts₀ where

variable [Facts]
-- ==== Proof.LibTransposedRhsDot.lean ====
/-
  A matrix product whose right operand is contracted on its LAST axis — `M × K` by `N × K`, each output entry the
  inner product of a row of the left operand with a row of the right one, no batch axis — read at an output index
  `(i, j)` at the ideal values: the sum over `k : Fin K` of `l (i, k) · r (j, k)`.

  `Ideal.matmul_constant_zero_apply` gives the sum over the record's own contraction index type, with the operand
  indices named by `lhsIdx` / `rhsIdx`. For the record `DotDims.transposedRhs M K N` those indices have the coordinates
  one expects — the left operand at (output row, contraction coordinate), the right operand at (output column,
  contraction coordinate) — and its contraction index is one coordinate below `K`, so the sum re-indexes over `Fin K`.
  A printed program's record with these dimension numbers is `DotDims.transposedRhs` at its extents by `rfl` (the fields
  are the same lists, and the well-formedness field is a proof), so the lemmas apply to it after a `show`. Stated for any
  `M K N`: nothing here depends on the extents.
-/
import Idealize.ShloMosaic.PureOps.Ideal.Laws
import Idealize.ShloMosaic.Lib.ValueIdx

noncomputable section

namespace Idealize.ShloMosaic.TransposedRhsDot

open Idealize.ShloMosaic Idealize.ShloMosaic.ValueIdx

variable (M K N : Nat)

/-- The left operand's row is the output's row. -/
theorem lhs_row (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction coordinate. -/
theorem lhs_col (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the output's column. -/
theorem rhs_row (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction coordinate. -/
theorem rhs_col (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- The contraction sum of such a product at `i`, over `Fin K`. -/
theorem sum_contr {α : Type*} [AddCommMonoid α] [Mul α] (l : (⟨2, ![M, K]⟩ : Shape).Idx → α) (r : (⟨2, ![N, K]⟩ : Shape).Idx → α)
    (i : (⟨2, ![M, N]⟩ : Shape).Idx) :
    ∑ q : (DotDims.transposedRhs M K N).contr.Idx,
        l ((DotDims.transposedRhs M K N).lhsIdx i q) * r ((DotDims.transposedRhs M K N).rhsIdx i q)
      = ∑ k : Fin K, l (ix2 (i 0) k) * r (ix2 (i 1) k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx i ((contrEquiv1 (DotDims.transposedRhs M K N) K rfl rfl).symm k) = ix2 (i 0) k :=
    funext fun a => Fin.ext (by
      match a with
      | ⟨0, _⟩ => exact lhs_row M K N _ _
      | ⟨1, _⟩ => exact (lhs_col M K N _ _).trans hk)
  have er : (DotDims.transposedRhs M K N).rhsIdx i ((contrEquiv1 (DotDims.transposedRhs M K N) K rfl rfl).symm k) = ix2 (i 1) k :=
    funext fun a => Fin.ext (by
      match a with
      | ⟨0, _⟩ => exact rhs_row M K N _ _
      | ⟨1, _⟩ => exact (rhs_col M K N _ _).trans hk)
  rw [el, er]
  rfl

/-- A `tpu.matmul` with these dimension numbers into the zero accumulator, read at `i`. -/
theorem matmul_zero_apply {φ₁ φ₂ : FTy} (prec : Option ContractPrecision) (l : FVec Ideal ⟨2, ![M, K]⟩ φ₁)
    (r : FVec Ideal ⟨2, ![N, K]⟩ φ₂) (i : (⟨2, ![M, N]⟩ : Shape).Idx) :
    matmul (DotDims.transposedRhs M K N) prec l r (constant ⟨2, ![M, N]⟩ .f32 0x00000000#32) i
      = ∑ k : Fin K, l (ix2 (i 0) k) * r (ix2 (i 1) k) :=
  (Ideal.matmul_constant_zero_apply (DotDims.transposedRhs M K N) prec l r i).trans (sum_contr M K N l r i)

end Idealize.ShloMosaic.TransposedRhsDot

end
-- ==== Proof.Spec.lean ====
/-
  The function both programs compute: a two-layer perceptron applied to every token of a batch of sequences.

  For a token with feature row `x`, hidden unit `h` is `max (∑ f, x f · W1 (h, f) + b1 h) 0`, and output channel `o` is
  `∑ h, hidden h · W2 (o, h) + b2 o`. Both weight matrices are stored with the contracted axis LAST, so each product is the
  inner product of two rows. `tokenOut` is one output entry from the token's row, the first layer, the output channel's
  row of the second layer and its bias; `mlp` reads it over the batch `[8, 4096, 1024]`, and `mlpRows` over the same
  tokens laid out as the 32768 rows of one matrix, with each bias as a one-row matrix. Row `b · 4096 + n` of that matrix
  is token `n` of sequence `b`, so the two readings agree entry by entry (`mlpRows_eq_mlp`). The zero the hidden units
  are clamped at stays the float literal's value: both programs spell the same word.
-/
import Idealize.ShloMosaic.PureOps.Ideal.Laws
import Idealize.ShloMosaic.Lib.ValueIdx

noncomputable section

namespace Cert.Mlp

open Idealize.ShloMosaic Idealize.ShloMosaic.ValueIdx

/-- One output entry for one token: the token's feature row `xrow`, the first layer `w1`, `b1`, and the output
    channel's second-layer row `w2row` and bias `b2o`. -/
def tokenOut (xrow : Fin 1024 → EReal) (w1 : Fin 4096 → Fin 1024 → EReal) (b1 : Fin 4096 → EReal)
    (w2row : Fin 4096 → EReal) (b2o : EReal) : EReal :=
  (∑ h : Fin 4096, max ((∑ f : Fin 1024, xrow f * w1 h f) + b1 h) (Ideal.ofBits .f32 0x00000000#32) * w2row h) + b2o

/-- The perceptron over the batch: entry `(b, n, o)` is output channel `o` of token `n` of sequence `b`. -/
def mlp (x : (⟨3, ![8, 4096, 1024]⟩ : Shape).Idx → EReal) (W1 : (⟨2, ![4096, 1024]⟩ : Shape).Idx → EReal)
    (b1 : (⟨1, ![4096]⟩ : Shape).Idx → EReal) (W2 : (⟨2, ![1024, 4096]⟩ : Shape).Idx → EReal)
    (b2 : (⟨1, ![1024]⟩ : Shape).Idx → EReal) : (⟨3, ![8, 4096, 1024]⟩ : Shape).Idx → EReal :=
  fun j => tokenOut (fun f => x (ix3 (n0 := 8) (n1 := 4096) (j 0) (j 1) f)) (fun h f => W1 (ix2 h f)) (fun h => b1 (ix1 h))
    (fun h => W2 (ix2 (n0 := 1024) (j 2) h)) (b2 (ix1 (n := 1024) (j 2)))

/-- The same over the tokens as rows of one matrix `X`, the biases as the one-row matrices `B1`, `B2`: entry `(r, o)`
    is output channel `o` of the token in row `r`. -/
def mlpRows (X : (⟨2, ![32768, 1024]⟩ : Shape).Idx → EReal) (W1 : (⟨2, ![4096, 1024]⟩ : Shape).Idx → EReal)
    (B1 : (⟨2, ![1, 4096]⟩ : Shape).Idx → EReal) (W2 : (⟨2, ![1024, 4096]⟩ : Shape).Idx → EReal)
    (B2 : (⟨2, ![1, 1024]⟩ : Shape).Idx → EReal) : (⟨2, ![32768, 1024]⟩ : Shape).Idx → EReal :=
  fun i => tokenOut (fun f => X (ix2 (n0 := 32768) (i 0) f)) (fun h f => W1 (ix2 h f)) (fun h => B1 (ix2 (0 : Fin 1) h))
    (fun h => W2 (ix2 (n0 := 1024) (i 1) h)) (B2 (ix2 (0 : Fin 1) (n1 := 1024) (i 1)))

/-- The row of the token matrix that holds token `n` of sequence `b`. -/
abbrev tokenRow (b : Fin 8) (n : Fin 4096) : Fin 32768 := ⟨b.val * 4096 + n.val, by have := b.isLt; have := n.isLt; omega⟩

/-- When `X` is the batch with its two leading axes merged and `B1`, `B2` are the biases as rows, the matrix reading at
    row `b · 4096 + n` is the batch reading at `(b, n)`. -/
theorem mlpRows_eq_mlp (X : (⟨2, ![32768, 1024]⟩ : Shape).Idx → EReal) (x : (⟨3, ![8, 4096, 1024]⟩ : Shape).Idx → EReal)
    (W1 : (⟨2, ![4096, 1024]⟩ : Shape).Idx → EReal)
    (B1 : (⟨2, ![1, 4096]⟩ : Shape).Idx → EReal) (b1 : (⟨1, ![4096]⟩ : Shape).Idx → EReal)
    (W2 : (⟨2, ![1024, 4096]⟩ : Shape).Idx → EReal)
    (B2 : (⟨2, ![1, 1024]⟩ : Shape).Idx → EReal) (b2 : (⟨1, ![1024]⟩ : Shape).Idx → EReal)
    (hX : ∀ (b : Fin 8) (n : Fin 4096) (f : Fin 1024), X (ix2 (tokenRow b n) f) = x (ix3 b n f))
    (hB1 : ∀ h : Fin 4096, B1 (ix2 (0 : Fin 1) h) = b1 (ix1 h))
    (hB2 : ∀ o : Fin 1024, B2 (ix2 (0 : Fin 1) o) = b2 (ix1 o))
    (b : Fin 8) (n : Fin 4096) (o : Fin 1024) :
    mlpRows X W1 B1 W2 B2 (ix2 (tokenRow b n) o) = mlp x W1 b1 W2 b2 (ix3 b n o) := by
  show tokenOut (fun f => X (ix2 (tokenRow b n) f)) (fun h f => W1 (ix2 h f)) (fun h => B1 (ix2 (0 : Fin 1) h))
      (fun h => W2 (ix2 o h)) (B2 (ix2 (0 : Fin 1) o))
    = tokenOut (fun f => x (ix3 b n f)) (fun h f => W1 (ix2 h f)) (fun h => b1 (ix1 h)) (fun h => W2 (ix2 o h)) (b2 (ix1 o))
  simp only [hX, hB1, hB2]

end Cert.Mlp

end
-- ==== Proof.Body.lean ====
/-
  What the kernel body computes for one block of 256 tokens, entry by entry, at the ideal values.

  The body multiplies the block's token rows by the rows of the first weight matrix, adds the bias row to every token,
  clamps at zero, multiplies the result by the rows of the second weight matrix and adds the second bias row. The two
  changes of float format in between keep every entry, and each product accumulates into zero, so it is the plain sum
  over the contracted coordinate. Entry `(p, q)` of what the body stores is therefore `tokenOut` of the block's row `p`,
  the first layer, and row `q` and entry `q` of the second layer and its bias.
-/
import proofs.«181041_j9663676416892_1_alg».proof.Proof.Gen.KernelIdeal.Skeleton
import proofs.«181041_j9663676416892_1_alg».proof.Proof.LibTransposedRhsDot
import proofs.«181041_j9663676416892_1_alg».proof.Proof.Spec
import Idealize.ShloMosaic.Lib.Pipeline.Value
import Idealize.ShloMosaic.Lib.ValueLayout

noncomputable section

namespace Cert.KernelIdeal.Body

open Cert.KernelIdeal Cert.KernelIdeal.Gen Idealize.ShloMosaic Idealize.ShloMosaic.ValueIdx

/-- Hidden unit `h` of the block's token `p`: the inner product of the token's row with row `h` of the first weight
    matrix, plus the bias entry, clamped at zero. -/
theorem hidden_apply (x0 : FVec Ideal S256x1024 .f32) (x1 : FVec Ideal S4096x1024 .bf16) (x2 : FVec Ideal S1x4096 .f32)
    (p : Fin 256) (h : Fin 4096) :
    maximumf (addf (matmul dot_S256x1024_S4096x1024_S256x4096_1_1_0_0_n_n none (truncf .bf16 x0 bitsLt_bf16_f32) x1
        (constant S256x4096 .f32 0x00000000#32)) (broadcastTo S256x4096 x2 broadcasts_S1x4096_S256x4096))
      (broadcast S256x4096 (Scalar.ofBits (F := Ideal) .f32 0x00000000#32)) (ix2 p h)
    = max ((∑ f : Fin 1024, x0 (ix2 p f) * x1 (ix2 h f)) + x2 (ix2 (0 : Fin 1) h)) (Ideal.ofBits .f32 0x00000000#32) := by
  rw [maximumf_apply, addf_apply, broadcast_apply, broadcastTo_1b_ab_apply]
  show max (matmul (DotDims.transposedRhs 256 1024 4096) none (truncf .bf16 x0 bitsLt_bf16_f32) x1
    (constant ⟨2, ![256, 4096]⟩ .f32 0x00000000#32) (ix2 p h) + _) _ = _
  rw [TransposedRhsDot.matmul_zero_apply]
  rfl

/-- Entry `(p, q)` of the block the body stores: output channel `q` of the block's token `p`. -/
theorem stored_apply (x0 : FVec Ideal S256x1024 .f32) (x1 : FVec Ideal S4096x1024 .bf16) (x2 : FVec Ideal S1x4096 .f32)
    (x3 : FVec Ideal S1024x4096 .bf16) (x4 : FVec Ideal S1x1024 .f32) (p : Fin 256) (q : Fin 1024) :
    k0_pay1 (F := Ideal) x0 x1 x2 x3 x4 (ix2 p q)
      = Cert.Mlp.tokenOut (fun f => x0 (ix2 p f)) (fun h f => x1 (ix2 h f)) (fun h => x2 (ix2 (0 : Fin 1) h))
          (fun h => x3 (ix2 q h)) (x4 (ix2 (0 : Fin 1) q)) := by
  unfold k0_pay1
  simp only [shapeCast_self]
  rw [addf_apply, broadcastTo_1b_ab_apply]
  refine congrArg (· + x4 (ix2 (0 : Fin 1) q)) ?_
  refine (TransposedRhsDot.matmul_zero_apply 256 4096 1024 (φ₁ := .bf16) (φ₂ := .bf16) none _ x3 (ix2 p q)).trans ?_
  exact Finset.sum_congr rfl fun k _ => congrArg (· * x3 (ix2 q k)) (hidden_apply x0 x1 x2 p k)

end Cert.KernelIdeal.Body

end
-- ==== Proof.Blocks.lean ====
/-
  The region's output array after the run: every token row of it is the perceptron of that row.

  Grid point `t` works on token rows `256 t … 256 t + 255`: its token window and its output window are both block `t` of
  their arrays along the rows, while the two weight matrices and the two bias rows are staged whole at every point (all
  their block indices are zero). So what point `t` writes back, entry `(p, q)` of its block, is output channel `q` of the
  token in row `256 t + p`: the block is the restriction to those rows of ONE function of the arrays the region finds,
  `rowsOut`. The 128 blocks tile the 32768 rows — row `r` lies in the block of point `r / 256` — so after the run the
  array is `rowsOut` everywhere.
-/
import proofs.«181041_j9663676416892_1_alg».proof.Proof.Gen.KernelIdeal.Frame
import proofs.«181041_j9663676416892_1_alg».proof.Proof.Body
import proofs.«181041_j9663676416892_1_alg».proof.Proof.Spec
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem offsets_zero : (![0, 0] : Fin 2 → Nat) = fun _ => 0 := funext fun a => by fin_cases a <;> rfl

/-- The output array as one function of the five arrays the region finds: the perceptron over the token rows. -/
abbrev rowsOut (c : Dev nD) : S32768x1024.Idx → EReal :=
  Cert.Mlp.mlpRows (V m c main_v0) (V m c main_v1) (V m c main_v3) (V m c main_v2) (V m c main_v4)

/-- The block indices at point `t`, decided over the 128 points: the token window and the output window are at block
    `t` of the rows and block 0 of the columns; the weights and biases are at block 0 on both axes. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The body's stored entry `(p, q)` when its five operands are arrays read through index maps: if the token block's
    row `p` is the token array's row `r` and the other four maps are the identity, the entry is the perceptron's entry
    `(r, q)`. Stated over plain functions so that it can be applied to any point's blocks. -/
theorem stored_of_blocks (A0 : S32768x1024.Idx → EReal) (A1 : S4096x1024.Idx → EReal) (A2 : S1x4096.Idx → EReal)
    (A3 : S1024x4096.Idx → EReal) (A4 : S1x1024.Idx → EReal)
    (e0 : S256x1024.Idx → S32768x1024.Idx) (e1 : S4096x1024.Idx → S4096x1024.Idx) (e2 : S1x4096.Idx → S1x4096.Idx)
    (e3 : S1024x4096.Idx → S1024x4096.Idx) (e4 : S1x1024.Idx → S1x1024.Idx)
    (p : Fin 256) (q : Fin 1024) (r : Fin 32768)
    (h0 : ∀ f : Fin 1024, e0 (ix2 p f) = ix2 r f) (h1 : ∀ y, e1 y = y) (h2 : ∀ y, e2 y = y)
    (h3 : ∀ y, e3 y = y) (h4 : ∀ y, e4 y = y) :
    k0_pay1 (F := Ideal) (fun y => A0 (e0 y)) (fun y => A1 (e1 y)) (fun y => A2 (e2 y)) (fun y => A3 (e3 y))
        (fun y => A4 (e4 y)) (ix2 p q)
      = Cert.Mlp.mlpRows A0 A1 A2 A3 A4 (ix2 r q) := by
  rw [Body.stored_apply]
  show _ = Cert.Mlp.tokenOut (fun f => A0 (ix2 r f)) (fun h f => A1 (ix2 h f)) (fun h => A2 (ix2 (0 : Fin 1) h))
    (fun h => A3 (ix2 q h)) (A4 (ix2 (0 : Fin 1) q))
  simp only [h0, h1, h2, h3, h4]

/-- What point `t` writes back is block `t` of `rowsOut`. A block's coordinate on an axis is the block index times the
    block's extent plus the coordinate inside the block; with the decided block indices each of the six index maps is
    the shift by `256 t` rows or the identity. -/
theorem flushed_eq (c : Dev nD) (t : Fin cfg0.N) :
    (dats m 0 c).flushed 5 t = ((cfg0.win 5).blk t).view.read (Elt Ideal) (rowsOut m c) := by
  show (cfg0.win 5).cut (grid0.coords t) ((dats m 0 c).after 5 t) = _
  rw [after0_5]
  unfold out0_5
  rw [View.canon_unit_zero offsets_zero]
  simp only [View.ld_unit_zero (S := S256x1024) offsets_zero, View.ld_unit_zero (S := S4096x1024) offsets_zero,
    View.ld_unit_zero (S := S1x4096) offsets_zero, View.ld_unit_zero (S := S1024x4096) offsets_zero,
    View.ld_unit_zero (S := S1x1024) offsets_zero]
  obtain ⟨a00, a01, a10, a11, a20, a21, a30, a31, a40, a41, a50, a51⟩ := block_indices t
  have htN : t.val < 128 := Nat.lt_of_lt_of_eq t.isLt N_0
  funext j
  obtain ⟨p, q, rfl⟩ : ∃ (p : Fin 256) (q : Fin 1024), j = ix2 p q := ⟨j 0, j 1, eq_ix2 j⟩
  show k0_pay1 (F := Ideal) (iblk m c 0 t) (iblk m c 1 t) (iblk m c 2 t) (iblk m c 3 t) (iblk m c 4 t) (ix2 p q)
    = rowsOut m c (((cfg0.win 5).blk t).view.emb (ix2 p q))
  have e5 : ((cfg0.win 5).blk t).view.emb (ix2 p q)
      = ix2 (⟨t.val * 256 + p.val, by have := p.isLt; omega⟩ : Fin 32768) q := by
    funext a; apply Fin.ext
    match a with
    | ⟨0, _⟩ => show win0_5.index t (0 : Fin 2) * 256 + 1 * p.val = t.val * 256 + p.val; omega
    | ⟨1, _⟩ => show win0_5.index t (1 : Fin 2) * 1024 + 1 * q.val = q.val; omega
  rw [e5]
  refine stored_of_blocks (V m c main_v0) (V m c main_v1) (V m c main_v3) (V m c main_v2) (V m c main_v4)
    ((cfg0.win 0).blk t).view.emb ((cfg0.win 1).blk t).view.emb ((cfg0.win 2).blk t).view.emb
    ((cfg0.win 3).blk t).view.emb ((cfg0.win 4).blk t).view.emb p q _ ?_ ?_ ?_ ?_ ?_
  · intro f
    funext a; apply Fin.ext
    match a with
    | ⟨0, _⟩ => show win0_0.index t (0 : Fin 2) * 256 + 1 * p.val = t.val * 256 + p.val; omega
    | ⟨1, _⟩ => show win0_0.index t (1 : Fin 2) * 1024 + 1 * f.val = f.val; omega
  · intro y
    funext a; apply Fin.ext
    match a with
    | ⟨0, _⟩ => show win0_1.index t (0 : Fin 2) * 4096 + 1 * (y 0).val = (y 0).val; omega
    | ⟨1, _⟩ => show win0_1.index t (1 : Fin 2) * 1024 + 1 * (y 1).val = (y 1).val; omega
  · intro y
    funext a; apply Fin.ext
    match a with
    | ⟨0, _⟩ => show win0_2.index t (0 : Fin 2) * 1 + 1 * (y 0).val = (y 0).val; omega
    | ⟨1, _⟩ => show win0_2.index t (1 : Fin 2) * 4096 + 1 * (y 1).val = (y 1).val; omega
  · intro y
    funext a; apply Fin.ext
    match a with
    | ⟨0, _⟩ => show win0_3.index t (0 : Fin 2) * 1024 + 1 * (y 0).val = (y 0).val; omega
    | ⟨1, _⟩ => show win0_3.index t (1 : Fin 2) * 4096 + 1 * (y 1).val = (y 1).val; omega
  · intro y
    funext a; apply Fin.ext
    match a with
    | ⟨0, _⟩ => show win0_4.index t (0 : Fin 2) * 1 + 1 * (y 0).val = (y 0).val; omega
    | ⟨1, _⟩ => show win0_4.index t (1 : Fin 2) * 1024 + 1 * (y 1).val = (y 1).val; omega

/-- An entry of the output array is in point `t`'s block exactly when each coordinate is in the block's range. -/
theorem mem_block (t : Fin cfg0.N) (i : S32768x1024.Idx) :
    i ∈ ((cfg0.win 5).blk t).view.set ↔ ∀ a : Fin 2, win0_5.index t a * S256x1024.size a ≤ (i a).val
      ∧ (i a).val < win0_5.index t a * S256x1024.size a + S256x1024.size a := by
  show i ∈ ((View.whole main_v5).slice (win0_5.rect t)).set ↔ _
  rw [View.set_slice_whole, Rect.mem_set_unit]
  exact Iff.rfl

/-- Every entry is in some point's block: row `r` is in the block of point `r / 256`. -/
theorem rows_covered (i : S32768x1024.Idx) :
    ∃ t : Fin cfg0.N, (cfg0.win 5).flush t = true ∧ i ∈ ((cfg0.win 5).blk t).view.set := by
  have hi0 : (i 0).val < 32768 := (i 0).isLt
  have hi1 : (i 1).val < 1024 := (i 1).isLt
  have hN : cfg0.N = 128 := N_0
  let t : Fin cfg0.N := ⟨(i 0).val / 256, by rw [hN]; omega⟩
  have ht : t.val = (i 0).val / 256 := rfl
  obtain ⟨-, -, -, -, -, -, -, -, -, -, a50, a51⟩ := block_indices t
  refine ⟨t, flush0_5 t, ?_⟩
  rw [mem_block]
  intro a
  match a with
  | ⟨0, _⟩ =>
    show win0_5.index t (0 : Fin 2) * 256 ≤ (i 0).val ∧ (i 0).val < win0_5.index t (0 : Fin 2) * 256 + 256
    omega
  | ⟨1, _⟩ =>
    show win0_5.index t (1 : Fin 2) * 1024 ≤ (i 1).val ∧ (i 1).val < win0_5.index t (1 : Fin 2) * 1024 + 1024
    omega

/-- The output array after the run is the perceptron over the token rows. -/
theorem array_eq (c : Dev nD) : (dats m 0 c).arrAt 5 cfg0.N = rowsOut m c :=
  (dats m 0 c).arrAt_eq_of_cover 5 (rowsOut m c) (fun t _ => flushed_eq m c t) rows_covered

end Cert.KernelIdeal.Blocks

end
-- ==== Proof.Entry.lean ====
/-
  What the kernel region finds in its five operand arrays: each is written by one host line from one argument.

  The token matrix is the batch with its two leading axes merged (a reshape), so its row `b · 4096 + n` is token `n` of
  sequence `b`; the two weight matrices are the arguments changed to a narrower float format, which keeps every entry at
  the ideal values; each bias is the argument as a one-row matrix. The first group of equations names each array as that
  operation of the launch contents, for any float values; the second reads them entry by entry at the ideal values.
-/
import proofs.«181041_j9663676416892_1_alg».proof.Proof.Gen.KernelIdeal.Frame
import proofs.«181041_j9663676416892_1_alg».proof.Proof.Spec
import Idealize.ShloMosaic.Lib.StableHlo.Run
import Idealize.ShloMosaic.Lib.Pipeline.Value
import Idealize.ShloMosaic.Lib.ValueLayout

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

section AnyValues

variable {F : FTy → Type} [FloatOps F]
variable (m : (ℓ : Loc nD τ sig) → Buf (Elt F) ℓ)

/-- The token matrix is the batch reshaped. -/
theorem tokens_eq (c : Dev nD) : (V m c main_v0 : S32768x1024.Idx → F .f32)
    = shapeCast S32768x1024 (m ((c : Thread nD τ).loc main_arg0)) shapeCasts_S8x4096x1024_S32768x1024 := by
  show StableHlo.after hostOps0 (fun b => m (c, b)) (Proc.devRef .tc main_v0) = _
  after_results <;> rfl

/-- The first layer's weights are the argument in the narrower format. -/
theorem w1_eq (c : Dev nD) : (V m c main_v1 : S4096x1024.Idx → F .bf16)
    = truncf .bf16 (m ((c : Thread nD τ).loc main_arg1)) bitsLt_bf16_f32 := by
  show StableHlo.after hostOps0 (fun b => m (c, b)) (Proc.devRef .tc main_v1) = _
  after_results <;> rfl

/-- The second layer's weights are the argument in the narrower format. -/
theorem w2_eq (c : Dev nD) : (V m c main_v2 : S1024x4096.Idx → F .bf16)
    = truncf .bf16 (m ((c : Thread nD τ).loc main_arg3)) bitsLt_bf16_f32 := by
  show StableHlo.after hostOps0 (fun b => m (c, b)) (Proc.devRef .tc main_v2) = _
  after_results <;> rfl

/-- The first bias as a one-row matrix. -/
theorem b1_eq (c : Dev nD) : (V m c main_v3 : S1x4096.Idx → F .f32)
    = shapeCast S1x4096 (m ((c : Thread nD τ).loc main_arg2)) shapeCasts_S4096_S1x4096 := by
  show StableHlo.after hostOps0 (fun b => m (c, b)) (Proc.devRef .tc main_v3) = _
  after_results <;> rfl

/-- The second bias as a one-row matrix. -/
theorem b2_eq (c : Dev nD) : (V m c main_v4 : S1x1024.Idx → F .f32)
    = shapeCast S1x1024 (m ((c : Thread nD τ).loc main_arg4)) shapeCasts_S1024_S1x1024 := by
  show StableHlo.after hostOps0 (fun b => m (c, b)) (Proc.devRef .tc main_v4) = _
  after_results <;> rfl

end AnyValues

section AtIdeal

variable (m : (ℓ : Loc nD τ sig) → Buf (Elt Ideal) ℓ)

/-- Row `b · 4096 + n` of the token matrix is token `n` of sequence `b`. -/
theorem tokens_apply (c : Dev nD) (b : Fin 8) (n : Fin 4096) (f : Fin 1024) :
    (V m c main_v0 : S32768x1024.Idx → EReal) (ix2 (Cert.Mlp.tokenRow b n) f)
      = (m ((c : Thread nD τ).loc main_arg0) : S8x4096x1024.Idx → EReal) (ix3 b n f) := by
  rw [tokens_eq]
  refine shapeCast_apply _ _ _ _ ?_
  show (S8x4096x1024.rowMajor (ix3 b n f)).val = (S32768x1024.rowMajor (ix2 (Cert.Mlp.tokenRow b n) f)).val
  rw [Shape.rowMajor_val_three, Shape.rowMajor_val_two]
  rfl

/-- The first layer's weights, entry by entry. -/
theorem w1_apply (c : Dev nD) (i : S4096x1024.Idx) :
    (V m c main_v1 : S4096x1024.Idx → EReal) i = (m ((c : Thread nD τ).loc main_arg1) : S4096x1024.Idx → EReal) i := by
  rw [w1_eq]; rfl

/-- The second layer's weights, entry by entry. -/
theorem w2_apply (c : Dev nD) (i : S1024x4096.Idx) :
    (V m c main_v2 : S1024x4096.Idx → EReal) i = (m ((c : Thread nD τ).loc main_arg3) : S1024x4096.Idx → EReal) i := by
  rw [w2_eq]; rfl

/-- The first bias row, entry by entry. -/
theorem b1_apply (c : Dev nD) (h : Fin 4096) :
    (V m c main_v3 : S1x4096.Idx → EReal) (ix2 (0 : Fin 1) h) = (m ((c : Thread nD τ).loc main_arg2) : S4096.Idx → EReal) (ix1 h) := by
  rw [b1_eq]; exact shapeCast_a_1a_apply _ _ _ _

/-- The second bias row, entry by entry. -/
theorem b2_apply (c : Dev nD) (o : Fin 1024) :
    (V m c main_v4 : S1x1024.Idx → EReal) (ix2 (0 : Fin 1) o) = (m ((c : Thread nD τ).loc main_arg4) : S1024.Idx → EReal) (ix1 o) := by
  rw [b2_eq]; exact shapeCast_a_1a_apply _ _ _ _

end AtIdeal

end Cert.KernelIdeal.Entry

end
-- ==== Proof.KernelValue.lean ====
/-
  The idealized kernel program's run, with its result named: the perceptron of the five arguments.

  After the region the program reshapes the output array `[32768, 1024]` back to `[8, 4096, 1024]`. The generated frame
  run states the result buffer as that host line applied to the region's output array, which is the perceptron over the
  token rows of the arrays the region found. Entry `(b, n, o)` of the reshaped array is entry `(b · 4096 + n, o)` of the
  output array, and the arrays the region found are the arguments reshaped or re-formatted entry by entry, so the result
  is `mlp` of the arguments.
-/
import proofs.«181041_j9663676416892_1_alg».proof.Proof.Gen.KernelIdeal.Frame
import proofs.«181041_j9663676416892_1_alg».proof.Proof.Blocks
import proofs.«181041_j9663676416892_1_alg».proof.Proof.Entry
import proofs.«181041_j9663676416892_1_alg».proof.Proof.Spec
import Idealize.ShloMosaic.Lib.StableHlo.Run
import Idealize.ShloMosaic.Lib.Pipeline.Value

noncomputable section

namespace Cert.KernelIdeal.KernelValue

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-- The result buffer after the program's last line: the region's output array, reshaped. -/
theorem result_eq_reshape (c : Dev nD) :
    (Pipeline.afterTail₀ cfgs (dats m) 0 (V0 m) [hostOps1] c main_v6 : S8x4096x1024.Idx → EReal)
      = shapeCast S8x4096x1024 (Blocks.rowsOut m c) shapeCasts_S32768x1024_S8x4096x1024 := by
  unfold Pipeline.afterTail₀
  show StableHlo.after hostOps1 _ (Proc.devRef .tc main_v6) = _
  after_results
  have e := (Pipeline.withArrays_arr spec0 winFacts0.arr_inj c (V0 m c) (fun w => (dats m 0 c).arrAt w cfg0.N) 5).trans
    (Blocks.array_eq m c)
  show (fun i => shapeCast S8x4096x1024 (Pipeline.withArrays spec0 c (V0 m c) (fun w => (dats m 0 c).arrAt w cfg0.N)
    (Proc.devRef .tc (Pipeline.arrRef spec0 5))) shapeCasts_S32768x1024_S8x4096x1024 i) = _
  rw [e]

/-- The perceptron over the token rows of what the region found, read at row `b · 4096 + n`, is the perceptron of the
    arguments at `(b, n)`. -/
theorem rowsOut_apply (c : Dev nD) (b : Fin 8) (n : Fin 4096) (o : Fin 1024) :
    Blocks.rowsOut m c (ix2 (Cert.Mlp.tokenRow b n) o)
      = Cert.Mlp.mlp (m ((c : Thread nD τ).loc main_arg0)) (m ((c : Thread nD τ).loc main_arg1))
          (m ((c : Thread nD τ).loc main_arg2)) (m ((c : Thread nD τ).loc main_arg3))
          (m ((c : Thread nD τ).loc main_arg4)) (ix3 b n o) := by
  have hw1 : (V m c main_v1 : S4096x1024.Idx → EReal) = m ((c : Thread nD τ).loc main_arg1) :=
    funext fun i => Entry.w1_apply m c i
  have hw2 : (V m c main_v2 : S1024x4096.Idx → EReal) = m ((c : Thread nD τ).loc main_arg3) :=
    funext fun i => Entry.w2_apply m c i
  show Cert.Mlp.mlpRows (V m c main_v0) (V m c main_v1) (V m c main_v3) (V m c main_v2) (V m c main_v4) _ = _
  rw [hw1, hw2]
  exact Cert.Mlp.mlpRows_eq_mlp _ _ _ _ _ _ _ _ (Entry.tokens_apply m c) (Entry.b1_apply m c) (Entry.b2_apply m c) b n o

/-- The result buffer is the perceptron of the arguments. -/
theorem result_eq (c : Dev nD) :
    (Pipeline.afterTail₀ cfgs (dats m) 0 (V0 m) [hostOps1] c main_v6 : S8x4096x1024.Idx → EReal)
      = Cert.Mlp.mlp (m ((c : Thread nD τ).loc main_arg0)) (m ((c : Thread nD τ).loc main_arg1))
          (m ((c : Thread nD τ).loc main_arg2)) (m ((c : Thread nD τ).loc main_arg3))
          (m ((c : Thread nD τ).loc main_arg4)) := by
  rw [result_eq_reshape]
  funext i
  obtain ⟨b, n, o, rfl⟩ : ∃ (b : Fin 8) (n : Fin 4096) (o : Fin 1024), i = ix3 b n o := ⟨i 0, i 1, i 2, eq_ix3 i⟩
  refine (shapeCast_apply _ _ (ix3 b n o) (ix2 (Cert.Mlp.tokenRow b n) o) ?_).trans (rowsOut_apply m c b n o)
  show (S32768x1024.rowMajor (ix2 (Cert.Mlp.tokenRow b n) o)).val = (S8x4096x1024.rowMajor (ix3 b n o)).val
  rw [Shape.rowMajor_val_three, Shape.rowMajor_val_two]
  rfl

/-- Every weakly fair execution of the idealized kernel program terminates with its result the perceptron of the
    arguments and the arguments unchanged. -/
theorem run : θ_run defs (onTc (τ := τ) (main (F := Ideal))) ⟨m, fun _ => 0, ρ⟩ fun r => ∀ c : Dev nD,
      r.2.mem ((c.tc : Thread nD τ).loc main_v6)
        = Cert.Mlp.mlp (m ((c : Thread nD τ).loc main_arg0)) (m ((c : Thread nD τ).loc main_arg1))
            (m ((c : Thread nD τ).loc main_arg2)) (m ((c : Thread nD τ).loc main_arg3))
            (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KernelValue

end
-- ==== Proof.RefValue.lean ====
/-
  The reference computes the perceptron of the specification, entry by entry.

  Its last line adds the second bias to a product contracted over the hidden axis; the left factor of that product is the
  clamped first layer, itself a product contracted over the feature axis plus the first bias. Read at the output entry
  `(b, n, o)` and unfolded stage by stage, the operands are read at composed indices whose coordinates are just the
  coordinates one expects: the token `(b, n)` at feature `f`, row `k` of the first weight matrix at `f`, entry `k` of
  the first bias, row `o` of the second weight matrix at `k`, entry `o` of the second bias. With those five index
  equations the unfolded term is `tokenOut` of the specification.
-/
import proofs.«181041_j9663676416892_1_alg».proof.Proof.Gen.ReferenceIdeal.Read
import proofs.«181041_j9663676416892_1_alg».proof.Proof.Spec

noncomputable section

namespace Cert.ReferenceIdeal.RefValue

open Cert.ReferenceIdeal Cert.ReferenceIdeal.Read Idealize.ShloMosaic Idealize.ShloMosaic.ValueIdx

/-- Under hidden unit `k` of output entry `(b, n, o)`, the first product reads token `(b, n)` at feature `f` … -/
theorem token_idx (b : Fin 8) (n : Fin 4096) (o : Fin 1024) (k : Fin 4096) (f : Fin 1024) :
    lidx_main_v0 (lidx_main_v5 (ix3 b n o) k) f = ix3 b n f :=
  funext fun a => Fin.ext (by match a with | ⟨0, _⟩ => rfl | ⟨1, _⟩ => rfl | ⟨2, _⟩ => rfl)

/-- … against row `k` of the first weight matrix at `f`, … -/
theorem w1_idx (b : Fin 8) (n : Fin 4096) (o : Fin 1024) (k : Fin 4096) (f : Fin 1024) :
    ridx_main_v0 (lidx_main_v5 (ix3 b n o) k) f = ix2 k f :=
  funext fun a => Fin.ext (by match a with | ⟨0, _⟩ => rfl | ⟨1, _⟩ => rfl)

/-- … and the broadcast first bias reads its entry `k`. -/
theorem b1_idx (b : Fin 8) (n : Fin 4096) (o : Fin 1024) (k : Fin 4096) :
    idx_main_v1 (idx_main_v2 (lidx_main_v5 (ix3 b n o) k)) = ix1 k :=
  funext fun a => Fin.ext (by match a with | ⟨0, _⟩ => rfl)

/-- The second product reads row `o` of the second weight matrix at `k`, … -/
theorem w2_idx (b : Fin 8) (n : Fin 4096) (o : Fin 1024) (k : Fin 4096) :
    ridx_main_v5 (ix3 b n o) k = ix2 o k :=
  funext fun a => Fin.ext (by match a with | ⟨0, _⟩ => rfl | ⟨1, _⟩ => rfl)

/-- … and the broadcast second bias reads its entry `o`. -/
theorem b2_idx (b : Fin 8) (n : Fin 4096) (o : Fin 1024) :
    idx_main_v6 (idx_main_v7 (ix3 b n o)) = ix1 o :=
  funext fun a => Fin.ext (by match a with | ⟨0, _⟩ => rfl)

/-- The reference's result is the perceptron of its five arguments. -/
theorem reference_eq (x0 : S8x4096x1024.Idx → EReal) (x1 : S4096x1024.Idx → EReal) (x2 : S4096.Idx → EReal)
    (x3 : S1024x4096.Idx → EReal) (x4 : S1024.Idx → EReal) :
    val_main_v8 (F := Ideal) x0 x1 x2 x3 x4 = Cert.Mlp.mlp x0 x1 x2 x3 x4 := by
  funext i
  obtain ⟨b, n, o, rfl⟩ : ∃ (b : Fin 8) (n : Fin 4096) (o : Fin 1024), i = ix3 b n o := ⟨i 0, i 1, i 2, eq_ix3 i⟩
  rw [val_main_v8_apply, val_main_v5_apply, val_main_v7_apply, val_main_v6_apply]
  simp only [val_main_v4_apply, val_main_v3_apply, val_main_v0_apply, val_main_v2_apply, val_main_v1_apply,
    val_main_call0_v0_apply, val_main_call0_cst_apply, token_idx, w1_idx, b1_idx, w2_idx, b2_idx]
  rfl

end Cert.ReferenceIdeal.RefValue

end
-- ==== Proof.lean ====
/- The certificate of a fused two-layer perceptron against its einsum reference.

   The kernel walks the 32768 tokens of a `[8, 4096, 1024]` batch in 128 blocks of 256 rows. For each block it forms
   `max (x · W1ᵀ + b1) 0 · W2ᵀ + b2` with both weight matrices resident, in a narrower float format for the products; the
   reference computes the same two contractions and clamps on the whole batch. Over the extended reals a change of float
   format is the identity and each product is the plain sum over the contracted coordinate, in the same order on both
   sides, so the two programs compute ONE function of the arguments, `Cert.Mlp.mlp`, entry by entry; no algebraic law and
   no finiteness of the inputs is needed.

   The three frames are the generated ones (the reference's is its generated run with the result dropped); the ideal
   pass rewrote nothing, so `preserves` is trivial; `algebraic` sets the kernel's run (`KernelValue.run`: the blocks
   written back tile the output array, which a host line reshapes to the batch's shape) beside the reference's run
   (`RefValue.reference_eq`), both ending at `mlp` of arguments that agree. -/
import proofs.«181041_j9663676416892_1_alg».proof.Defs
import proofs.«181041_j9663676416892_1_alg».proof.Proof.Gen.Kernel
import proofs.«181041_j9663676416892_1_alg».proof.Proof.Gen.Kernel.Skeleton
import proofs.«181041_j9663676416892_1_alg».proof.Proof.Gen.Kernel.Launch
import proofs.«181041_j9663676416892_1_alg».proof.Proof.Gen.Kernel.Points
import proofs.«181041_j9663676416892_1_alg».proof.Proof.Gen.Kernel.Frame
import proofs.«181041_j9663676416892_1_alg».proof.Proof.Gen.KernelIdeal
import proofs.«181041_j9663676416892_1_alg».proof.Proof.Gen.KernelIdeal.Skeleton
import proofs.«181041_j9663676416892_1_alg».proof.Proof.Gen.KernelIdeal.Launch
import proofs.«181041_j9663676416892_1_alg».proof.Proof.Gen.KernelIdeal.Points
import proofs.«181041_j9663676416892_1_alg».proof.Proof.Gen.KernelIdeal.Frame
import proofs.«181041_j9663676416892_1_alg».proof.Proof.Gen.ReferenceIdeal
import proofs.«181041_j9663676416892_1_alg».proof.Proof.Gen.Pre_finite_inputs
import proofs.«181041_j9663676416892_1_alg».proof.Proof.Gen.ReferenceIdeal.Run
import proofs.«181041_j9663676416892_1_alg».proof.Proof.Gen.ReferenceIdeal.Read
import proofs.«181041_j9663676416892_1_alg».proof.Proof.KernelValue
import proofs.«181041_j9663676416892_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments both idealized programs end with the perceptron of those arguments
    in their result buffer. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.reference_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
